-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8 : Shape := ⟨1, ![8]⟩
abbrev S2048x8 : Shape := ⟨2, ![2048, 8]⟩
abbrev S512x2048 : Shape := ⟨2, ![512, 2048]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  main_v18

def fn {F : FTy → Type} [FloatOps F] (main_arg0 : FVec F S8x4096x512 .f32) (main_arg1 : FVec F S8 .f32) (main_arg2 : FVec F S2048x8 .f32) (main_arg3 : FVec F S512x2048 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_v13 main_v16
-- ==== Kernel.lean ====
abbrev S8x4096x512 : Shape := ⟨3, ![8, 4096, 512]⟩
abbrev S8 : Shape := ⟨1, ![8]⟩
abbrev S2048x8 : Shape := ⟨2, ![2048, 8]⟩
abbrev S512x2048 : Shape := ⟨2, ![512, 2048]⟩
abbrev S32768x512 : Shape := ⟨2, ![32768, 512]⟩
abbrev S1x8 : Shape := ⟨2, ![1, 8]⟩
abbrev S8x2048 : Shape := ⟨2, ![8, 2048]⟩
abbrev S2048x512 : Shape := ⟨2, ![2048, 512]⟩
abbrev S1024x512 : Shape := ⟨2, ![1024, 512]⟩
abbrev S1024x8 : Shape := ⟨2, ![1024, 8]⟩
abbrev S1024x2048 : Shape := ⟨2, ![1024, 2048]⟩

abbrev nBuf : Space → Nat
  | .hbm => 12
  | .vmem => 7
  | .smem => 0
  | _ => 0

abbrev bufTy : (tb : Table) → Fin (tcTables nBuf tb) → BufTy
  | .hbm, ⟨0, _⟩ => ⟨S8x4096x512, .f32⟩
  | .hbm, ⟨1, _⟩ => ⟨S8, .f32⟩
  | .hbm, ⟨2, _⟩ => ⟨S2048x8, .f32⟩
  | .hbm, ⟨3, _⟩ => ⟨S512x2048, .f32⟩
  | .hbm, ⟨4, _⟩ => ⟨S32768x512, .f32⟩
  | .hbm, ⟨5, _⟩ => ⟨S1x8, .f32⟩
  | .hbm, ⟨6, _⟩ => ⟨S8x2048, .f32⟩
  | .hbm, ⟨7, _⟩ => ⟨S8x2048, .bf16⟩
  | .hbm, ⟨8, _⟩ => ⟨S2048x512, .f32⟩
  | .hbm, ⟨9, _⟩ => ⟨S2048x512, .bf16⟩
  | .hbm, ⟨10, _⟩ => ⟨S32768x512, .f32⟩
  | .hbm, ⟨11, _⟩ => ⟨S8x4096x512, .f32⟩
  | .local _ .vmem, ⟨0, _⟩ => ⟨S1024x512, .f32⟩
  | .local _ .vmem, ⟨1, _⟩ => ⟨S1024x512, .f32⟩
  | .local _ .vmem, ⟨2, _⟩ => ⟨S1x8, .f32⟩
  | .local _ .vmem, ⟨3, _⟩ => ⟨S8x2048, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x4096x512_S32768x512 : S8x4096x512.ShapeCasts S32768x512
  shapeCasts_S8_S1x8 : S8.ShapeCasts S1x8
  transposes_S2048x8_S8x2048_1_0 : S2048x8.Transposes [1, 0] S8x2048
  bitsLt_bf16_f32 : FTy.bits .bf16 < FTy.bits .f32
  transposes_S512x2048_S2048x512_1_0 : S512x2048.Transposes [1, 0] S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S1024x512_o0_0_S1024x8 : S1024x512.Slices ![0, 0] S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S32768x512_S8x4096x512 : S32768x512.ShapeCasts S8x4096x512
  dot_S1024x8_S8x2048_S1024x2048_1_0_0_1_n_n_wf : DotDims.WF S1024x8 S8x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x2048.size a
  hwx0_2 : ∀ i : grid0.Coords, EltTy.bits .bf16 = 32 ∨ (Rect.block (s := S8x2048) S8x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S32768x512.size a
  hwx0_4 : ∀ i : grid0.Coords, EltTy.bits .f32 = 32 ∨ (Rect.block (s := S32768x512) S1024x512.size (cc0_transform_4 i) (hinb0_4 i)).WholeWords (EltTy.packing .f32)

variable [Facts₀]

def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8 : Shape := ⟨1, ![8]⟩
abbrev S2048x8 : Shape := ⟨2, ![2048, 8]⟩
abbrev S512x2048 : Shape := ⟨2, ![512, 2048]⟩
abbrev S8x4096x8 : Shape := ⟨3, ![8, 4096, 8]⟩
abbrev S1x1x8 : Shape := ⟨3, ![1, 1, 8]⟩
abbrev S8x4096x2048 : Shape := ⟨3, ![8, 4096, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8, .f32⟩
  | .hbm, ⟨2, _⟩ => ⟨S2048x8, .f32⟩
  | .hbm, ⟨3, _⟩ => ⟨S512x2048, .f32⟩
  | .hbm, ⟨4, _⟩ => ⟨S8x4096x8, .f32⟩
  | .hbm, ⟨5, _⟩ => ⟨S1x1x8, .f32⟩
  | .hbm, ⟨6, _⟩ => ⟨S8x4096x8, .f32⟩
  | .hbm, ⟨7, _⟩ => ⟨S8x4096x8, .f32⟩
  | .hbm, ⟨8, _⟩ => ⟨S8x4096x8, .f32⟩
  | .hbm, ⟨9, _⟩ => ⟨S8x4096x2048, .f32⟩
  | .hbm, ⟨10, _⟩ => ⟨S_, .f32⟩
  | .hbm, ⟨11, _⟩ => ⟨S8x4096x2048, .f32⟩
  | .hbm, ⟨12, _⟩ => ⟨S8x4096x2048, .f32⟩
  | .hbm, ⟨13, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  slices_S8x4096x512_S8x4096x8_0_0_0 : S8x4096x512.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S_S8x4096x2048 : S_.BroadcastsInDim S8x4096x2048 (![] : Fin 0 → Fin S8x4096x2048.rank)
  dot_S8x4096x8_S2048x8_S8x4096x2048_2_1_01_0_n_n_wf : DotDims.WF S8x4096x8 S2048x8 S8x4096x2048 [2] [1] [0, 1] [0] [] []
  dot_S8x4096x2048_S512x2048_S8x4096x512_2_1_01_0_n_n_wf : DotDims.WF S8x4096x2048 S512x2048 S8x4096x512 [2] [1] [0, 1] [0] [] []

variable [Facts₀]

def dot_S8x4096x8_S2048x8_S8x4096x2048_2_1_01_0_n_n : DotDims S8x4096x8 S2048x8 S8x4096x2048 where
  lhsContracting := [2]
  rhsContracting := [1]
  lhsNonContracting := [0, 1]
  rhsNonContracting := [0]
  lhsBatch := []
  rhsBatch := []
  wf := dot_S8x4096x8_S2048x8_S8x4096x2048_2_1_01_0_n_n_wf
def dot_S8x4096x2048_S512x2048_S8x4096x512_2_1_01_0_n_n : DotDims S8x4096x2048 S512x2048 S8x4096x512 where
  lhsContracting := [2]
  rhsContracting := [1]
  lhsNonContracting := [0, 1]
  rhsNonContracting := [0]
  lhsBatch := []
  rhsBatch := []
  wf := dot_S8x4096x2048_S512x2048_S8x4096x512_2_1_01_0_n_n_wf

class Facts : Prop extends Facts₀ where

variable [Facts]
-- ==== Proof.Spec.lean ====
/-
  The feed-forward block as ONE function of the four argument arrays, index by index, on the extended reals.

  For a token (b, s) only the first eight features of x are read: wire q carries the angle x[b, s, q] + θ[q] and is
  measured as its cosine.  The hidden layer is the rectified linear image of the eight measurements under W1
  (2048 units, each a sum over the eight wires), and the output is the linear image of the hidden layer under W2
  (512 features, each a sum over the 2048 units):

      ffn x θ W1 W2 [b, s, e] = Σ_f  max (Σ_q cos (x[b, s, q] + θ[q]) · W1[f, q]) 0  ·  W2[e, f].

  Both programs compute this function; nothing here depends on either of them.
-/
import Idealize.ShloMosaic.PureOps.Ideal
import Idealize.ShloMosaic.PureOps.Ideal.Laws
import Idealize.ShloMosaic.Lib.ValueIdx

noncomputable section

open scoped BigOperators

namespace Cert.FeedForward

open Idealize.ShloMosaic Idealize.ShloMosaic.ValueIdx

/-- Tokens by features: the shape of x and of the result. -/
abbrev Tok : Shape := ⟨3, ![8, 4096, 512]⟩
/-- One angle per wire. -/
abbrev Ang : Shape := ⟨1, ![8]⟩
/-- The first layer's weights, hidden unit by wire. -/
abbrev Up : Shape := ⟨2, ![2048, 8]⟩
/-- The second layer's weights, output feature by hidden unit. -/
abbrev Down : Shape := ⟨2, ![512, 2048]⟩

/-- Wire q reads feature q of a token: the first eight of its 512 features. -/
def wire (q : Fin 8) : Fin 512 := ⟨q.val, by have := q.isLt; omega⟩

theorem wire_val (q : Fin 8) : (wire q).val = q.val := rfl

/-- The measurement of wire q at token (b, s): the cosine of the token's feature q shifted by the wire's angle. -/
def meas (x : FVec Ideal Tok .f32) (θ : FVec Ideal Ang .f32) (b : Fin 8) (s : Fin 4096) (q : Fin 8) : EReal :=
  Ideal.cos (x (ix3 b s (wire q)) + θ (ix1 q))

/-- Hidden unit f at token (b, s): the eight measurements weighted by row f of W1, rectified. -/
def hidden (x : FVec Ideal Tok .f32) (θ : FVec Ideal Ang .f32) (W1 : FVec Ideal Up .f32)
    (b : Fin 8) (s : Fin 4096) (f : Fin 2048) : EReal :=
  max (∑ q : Fin 8, meas x θ b s q * W1 (ix2 f q)) 0

/-- The block's output: feature e of token (b, s) is the hidden layer weighted by row e of W2. -/
def ffn (x : FVec Ideal Tok .f32) (θ : FVec Ideal Ang .f32) (W1 : FVec Ideal Up .f32) (W2 : FVec Ideal Down .f32) :
    FVec Ideal Tok .f32 := fun i =>
  ∑ f : Fin 2048, hidden x θ W1 (i 0) (i 1) f * W2 (ix2 (i 2) f)

end Cert.FeedForward

end
-- ==== Proof.RefSide.lean ====
/-
  The reference computes `ffn`.

  Read one operation at a time, the reference's result at (b, s, e) is the sum over the 2048 hidden units f of
  max (Σ_q cos (x[b, s, q] + θ[q]) · W1[f, q]) 0 · W2[e, f]: the slice keeps features 0..7 of each token, the two
  broadcasts repeat θ along the tokens, each contraction is a plain sum on the extended reals, and the rectifier
  is the maximum with the zero word's value, the real 0.
-/
import proofs.«132564_j65481071397135_1_alg».proof.Proof.Gen.ReferenceIdeal.Read
import proofs.«132564_j65481071397135_1_alg».proof.Proof.Spec

noncomputable section

open scoped BigOperators

namespace Cert.FeedForward.Ref

open Idealize.ShloMosaic Idealize.ShloMosaic.ValueIdx Cert.ReferenceIdeal Cert.ReferenceIdeal.Read Cert.FeedForward

/-- The second contraction reads W2 at (e, f). -/
theorem down_idx (i : S8x4096x512.Idx) (k : Fin 2048) : ridx_main_v7 i k = ix2 (i 2) k :=
  funext fun a => Fin.ext (by match a with | ⟨0, _⟩ => rfl | ⟨1, _⟩ => rfl)

/-- The first contraction, below the second, reads W1 at (f, q). -/
theorem up_idx (i : S8x4096x512.Idx) (k : Fin 2048) (q : Fin 8) : ridx_main_v5 (lidx_main_v7 i k) q = ix2 k q :=
  funext fun a => Fin.ext (by match a with | ⟨0, _⟩ => rfl | ⟨1, _⟩ => rfl)

/-- The sliced token array is read at (b, s, wire q). -/
theorem tok_idx (i : S8x4096x512.Idx) (k : Fin 2048) (q : Fin 8) :
    idx_main_v0 (lidx_main_v5 (lidx_main_v7 i k) q) = ix3 (i 0) (i 1) (wire q) :=
  funext fun a => Fin.ext (by match a with | ⟨0, _⟩ => rfl | ⟨1, _⟩ => rfl | ⟨2, _⟩ => rfl)

/-- The twice-broadcast angles are read at q. -/
theorem ang_idx (i : S8x4096x512.Idx) (k : Fin 2048) (q : Fin 8) :
    idx_main_v1 (idx_main_v2 (lidx_main_v5 (lidx_main_v7 i k) q)) = ix1 q :=
  funext fun a => Fin.ext (by match a with | ⟨0, _⟩ => rfl)

/-- The reference's result is `ffn` of its arguments. -/
theorem result_eq (x0 : FVec Ideal Tok .f32) (x1 : FVec Ideal Ang .f32) (x2 : FVec Ideal Up .f32) (x3 : FVec Ideal Down .f32) :
    val_main_v7 (F := Ideal) x0 x1 x2 x3 = ffn x0 x1 x2 x3 := by
  funext i
  rw [val_main_v7_apply]
  unfold ffn
  refine Finset.sum_congr rfl fun k _ => ?_
  rw [down_idx, val_main_v6_apply, val_main_v5_apply, val_main_call0_v0_apply, val_main_call0_cst_apply]
  unfold hidden
  simp only [Ideal.maximumf_def, Ideal.ofBits_def, Ideal.ofBits_zero_f32]
  congr 2
  refine Finset.sum_congr rfl fun q _ => ?_
  rw [up_idx, val_main_v4_apply, val_main_v3_apply, val_main_v0_apply, val_main_v2_apply, val_main_v1_apply, tok_idx, ang_idx]
  rfl

end Cert.FeedForward.Ref

end
-- ==== Proof.KernelPayload.lean ====
/-
  What the kernel body stores for one block of 1024 tokens, read at row p and feature e.

  The body reads a block of 1024 tokens by 512 features, the row of eight angles, and the two weight matrices
  already transposed: W1ᵀ (wire by hidden unit) and W2ᵀ (hidden unit by feature).  It keeps the first eight
  features of each row, adds the angles, takes cosines, multiplies by W1ᵀ into a zero accumulator, rectifies, and
  multiplies by W2ᵀ into a zero accumulator.  On the extended reals the narrowing of a format is the identity and
  a product into a zero accumulator is the plain sum over the contracted axis, so the stored value at (p, e) is

      Σ_f  max (Σ_q cos (x[p, q] + θ[0, q]) · W1ᵀ[q, f]) 0  ·  W2ᵀ[f, e].
-/
import proofs.«132564_j65481071397135_1_alg».proof.Proof.Gen.KernelIdeal.Skeleton
import proofs.«132564_j65481071397135_1_alg».proof.Proof.Spec
import Idealize.ShloMosaic.Lib.ValueIdx
import Idealize.ShloMosaic.Lib.Pipeline.Value
import Idealize.ShloMosaic.PureOps.Ideal.Laws

noncomputable section

open scoped BigOperators

namespace Cert.FeedForward.Body

open Idealize.ShloMosaic Idealize.ShloMosaic.ValueIdx Cert.KernelIdeal Cert.KernelIdeal.Gen Cert.FeedForward

/-! ## The two products' operand indices, axis by axis -/

theorem lhs_up_0 (i : S1024x2048.Idx) (q : dot_S1024x8_S8x2048_S1024x2048_1_0_0_1_n_n.contr.Idx) :
    (dot_S1024x8_S8x2048_S1024x2048_1_0_0_1_n_n.lhsIdx i q 0).val = (i 0).val := by
  unfold DotDims.lhsIdx
  rw [dif_neg (show ¬(0 : Fin S1024x8.rank) ∈ dot_S1024x8_S8x2048_S1024x2048_1_0_0_1_n_n.lhsBatch by decide), dif_pos (show (0 : Fin S1024x8.rank) ∈ dot_S1024x8_S8x2048_S1024x2048_1_0_0_1_n_n.lhsNonContracting by decide)]
  rfl
theorem lhs_up_1 (i : S1024x2048.Idx) (q : dot_S1024x8_S8x2048_S1024x2048_1_0_0_1_n_n.contr.Idx) :
    (dot_S1024x8_S8x2048_S1024x2048_1_0_0_1_n_n.lhsIdx i q 1).val = (q ⟨0, by decide⟩).val :=
  dot_S1024x8_S8x2048_S1024x2048_1_0_0_1_n_n.lhsIdx_val_of_single rfl i q
theorem rhs_up_0 (i : S1024x2048.Idx) (q : dot_S1024x8_S8x2048_S1024x2048_1_0_0_1_n_n.contr.Idx) :
    (dot_S1024x8_S8x2048_S1024x2048_1_0_0_1_n_n.rhsIdx i q 0).val = (q ⟨0, by decide⟩).val :=
  dot_S1024x8_S8x2048_S1024x2048_1_0_0_1_n_n.rhsIdx_val_of_single rfl i q
theorem rhs_up_1 (i : S1024x2048.Idx) (q : dot_S1024x8_S8x2048_S1024x2048_1_0_0_1_n_n.contr.Idx) :
    (dot_S1024x8_S8x2048_S1024x2048_1_0_0_1_n_n.rhsIdx i q 1).val = (i 1).val := by
  unfold DotDims.rhsIdx
  rw [dif_neg (show ¬(1 : Fin S8x2048.rank) ∈ dot_S1024x8_S8x2048_S1024x2048_1_0_0_1_n_n.rhsBatch by decide), dif_pos (show (1 : Fin S8x2048.rank) ∈ dot_S1024x8_S8x2048_S1024x2048_1_0_0_1_n_n.rhsNonContracting by decide)]
  rfl

theorem lhs_down_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem lhs_down_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem rhs_down_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem rhs_down_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-! ## The first product at (p, f): the eight measurements of row p against column f of W1ᵀ -/

theorem up_apply (a : FVec Ideal S1024x8 .bf16) (w : FVec Ideal S8x2048 .bf16) (p : Fin 1024) (f : Fin 2048) :
    matmul dot_S1024x8_S8x2048_S1024x2048_1_0_0_1_n_n none a w (constant S1024x2048 .f32 0x00000000#32) (ix2 p f)
      = ∑ q : Fin 8, a (ix2 p q) * w (ix2 q f) := by
  simp only [matmul]
  rw [Ideal.matmul_constant_zero_apply, ← Equiv.sum_comp (contrEquiv1 dot_S1024x8_S8x2048_S1024x2048_1_0_0_1_n_n 8 rfl rfl).symm]
  refine Finset.sum_congr rfl fun k _ => ?_
  have hk := contrEquiv1_symm_val dot_S1024x8_S8x2048_S1024x2048_1_0_0_1_n_n 8 rfl rfl k
  have el : dot_S1024x8_S8x2048_S1024x2048_1_0_0_1_n_n.lhsIdx (ix2 p f) ((contrEquiv1 dot_S1024x8_S8x2048_S1024x2048_1_0_0_1_n_n 8 rfl rfl).symm k) = ix2 p k := funext fun a => Fin.ext (by
    match a with
    | ⟨0, _⟩ => exact lhs_up_0 _ _
    | ⟨1, _⟩ => exact (lhs_up_1 _ _).trans hk)
  have er : dot_S1024x8_S8x2048_S1024x2048_1_0_0_1_n_n.rhsIdx (ix2 p f) ((contrEquiv1 dot_S1024x8_S8x2048_S1024x2048_1_0_0_1_n_n 8 rfl rfl).symm k) = ix2 k f := funext fun a => Fin.ext (by
    match a with
    | ⟨0, _⟩ => exact (rhs_up_0 _ _).trans hk
    | ⟨1, _⟩ => exact rhs_up_1 _ _)
  rw [el, er]

/-! ## The second product at (p, e): the 2048 hidden units of row p against column e of W2ᵀ -/

theorem down_apply (h : FVec Ideal S1024x2048 .bf16) (w : FVec Ideal S2048x512 .bf16) (p : Fin 1024) (e : Fin 512) :
    matmul dot_S1024x2048_S2048x512_S1024x512_1_0_0_1_n_n none h w (constant S1024x512 .f32 0x00000000#32) (ix2 p e)
      = ∑ f : Fin 2048, h (ix2 p f) * w (ix2 f e) := by
  simp only [matmul]
  rw [Ideal.matmul_constant_zero_apply, ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p e) ((contrEquiv1 dot_S1024x2048_S2048x512_S1024x512_1_0_0_1_n_n 2048 rfl rfl).symm k) = ix2 p k := funext fun a => Fin.ext (by
    match a with
    | ⟨0, _⟩ => exact lhs_down_0 _ _
    | ⟨1, _⟩ => exact (lhs_down_1 _ _).trans hk)
  have er : dot_S1024x2048_S2048x512_S1024x512_1_0_0_1_n_n.rhsIdx (ix2 p e) ((contrEquiv1 dot_S1024x2048_S2048x512_S1024x512_1_0_0_1_n_n 2048 rfl rfl).symm k) = ix2 k e := funext fun a => Fin.ext (by
    match a with
    | ⟨0, _⟩ => exact (rhs_down_0 _ _).trans hk
    | ⟨1, _⟩ => exact rhs_down_1 _ _)
  rw [el, er]

/-! ## The measured wires of a block, at row p and wire q -/

/-- The block's first eight features shifted by the angles, in cosine: what the first product's left operand holds. -/
theorem wires_apply (x0 : Vec Ideal S1024x512 .f32) (x1 : Vec Ideal S1x8 .f32) (p : Fin 1024) (q : Fin 8) :
    (truncf .bf16 (cos (addf (extractStridedSlice S1024x8 ![0, 0] (shapeCast S1024x512 x0 shapeCasts_S1024x512_S1024x512) slices_S1024x512_o0_0_S1024x8)
        (broadcastTo S1024x8 (shapeCast S1x8 x1 shapeCasts_S1x8_S1x8) broadcasts_S1x8_S1024x8))) bitsLt_bf16_f32 : FVec Ideal S1024x8 .bf16) (ix2 p q)
      = Ideal.cos (x0 (ix2 p (wire q)) + x1 (ix2 (0 : Fin 1) q)) := by
  show Ideal.cos (extractStridedSlice S1024x8 ![0, 0] (shapeCast S1024x512 x0 shapeCasts_S1024x512_S1024x512) slices_S1024x512_o0_0_S1024x8 (ix2 p q)
      + broadcastTo S1024x8 (shapeCast S1x8 x1 shapeCasts_S1x8_S1x8) broadcasts_S1x8_S1024x8 (ix2 p q)) = _
  rw [shapeCast_self, shapeCast_self,
    extractStridedSlice_apply ![0, 0] x0 slices_S1024x512_o0_0_S1024x8 (ix2 p q) (ix2 p (wire q)) (fun a => match a with
      | ⟨0, _⟩ => by show p.val = 0 + p.val; omega
      | ⟨1, _⟩ => by show q.val = 0 + q.val; omega),
    broadcastTo_apply x1 broadcasts_S1x8_S1024x8 (ix2 p q) (ix2 (0 : Fin 1) q) (fun a => match a with
      | ⟨0, _⟩ => by show (0 : Nat) = if (1 : Nat) = 1 then 0 else p.val; rw [if_pos rfl]
      | ⟨1, _⟩ => by show q.val = if (8 : Nat) = 1 then 0 else q.val; rw [if_neg (by decide)])]

/-! ## The stored value -/

/-- The body's one store, at row p and feature e of the block: the hidden layer of row p against column e of W2ᵀ. -/
theorem payload_apply (x0 : Vec Ideal S1024x512 .f32) (x1 : Vec Ideal S1x8 .f32) (x2 : Vec Ideal S8x2048 .bf16) (x3 : Vec Ideal S2048x512 .bf16)
    (p : Fin 1024) (e : Fin 512) :
    k0_pay1 (F := Ideal) x0 x1 x2 x3 (ix2 p e)
      = ∑ f : Fin 2048, max (∑ q : Fin 8, Ideal.cos (x0 (ix2 p (wire q)) + x1 (ix2 (0 : Fin 1) q)) * x2 (ix2 q f)) 0 * x3 (ix2 f e) := by
  unfold k0_pay1
  refine (down_apply _ _ p e).trans ?_
  refine Finset.sum_congr rfl fun f _ => ?_
  refine congrArg₂ (· * ·) ?_ (congrFun (shapeCast_self x3 shapeCasts_S2048x512_S2048x512) (ix2 f e))
  show max (matmul dot_S1024x8_S8x2048_S1024x2048_1_0_0_1_n_n none _ _ (constant S1024x2048 .f32 0x00000000#32) (ix2 p f)) (Ideal.ofBits .f32 0x00000000#32) = _
  refine congrArg₂ max ((up_apply _ _ p f).trans ?_) Ideal.ofBits_zero_f32
  refine Finset.sum_congr rfl fun q _ => ?_
  exact congrArg₂ (· * ·) (wires_apply x0 x1 p q) (congrFun (shapeCast_self x2 shapeCasts_S8x2048_S8x2048) (ix2 q f))

end Cert.FeedForward.Body

end
-- ==== Proof.KernelArray.lean ====
/-
  What the region leaves in its output array: one function of the four arrays it reads.

  The region walks 32 blocks of 1024 tokens.  At block t it reads rows 1024·t … 1024·t + 1023 of the token
  array, and the whole of the angle row and of the two transposed weight matrices, and writes rows
  1024·t … 1024·t + 1023 of the output.  Row n of the output therefore depends on row n of the token array only:

      out[n, e] = Σ_f  max (Σ_q cos (X[n, q] + θ[0, q]) · W1ᵀ[q, f]) 0  ·  W2ᵀ[f, e],

  and since the 32 blocks tile the 32768 rows, the array ends holding that function everywhere.
-/
import proofs.«132564_j65481071397135_1_alg».proof.Proof.Gen.KernelIdeal.Frame
import proofs.«132564_j65481071397135_1_alg».proof.Proof.KernelPayload
import Idealize.ShloMosaic.Lib.Pipeline.Value
import Idealize.ShloMosaic.Lib.Tactic

noncomputable section

open scoped BigOperators

namespace Cert.FeedForward.Region

open Idealize.ShloMosaic Idealize.ShloMosaic.TcCoe Idealize.ShloMosaic.ValueIdx Idealize.SL.Sem
open Idealize.ShloMosaic.Pipeline (Dat)
open Cert.KernelIdeal Cert.KernelIdeal.Gen Cert.FeedForward

variable (m : (ℓ : Loc nD τ sig) → Buf (Elt Ideal) ℓ) (ρ : Dev nD → PrngReg)

theorem hz : (![0, 0] : Fin 2 → Nat) = fun _ => 0 := funext fun a => by fin_cases a <;> rfl

/-- The region's output as a function of the token array (tokens flattened to 32768 rows), the angle row and the
    two transposed weight matrices. -/
def regionOut (X : FVec Ideal S32768x512 .f32) (θ : FVec Ideal S1x8 .f32) (W1t : FVec Ideal S8x2048 .bf16) (W2t : FVec Ideal S2048x512 .bf16) :
    FVec Ideal S32768x512 .f32 := fun i =>
  ∑ f : Fin 2048, max (∑ q : Fin 8, Ideal.cos (X (ix2 (i 0) (wire q)) + θ (ix2 (0 : Fin 1) q)) * W1t (ix2 q f)) 0 * W2t (ix2 f (i 1))

/-- The printed index maps over the grid: the token and output windows move one block of rows per point, the other
    three windows stay on their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each input block as rows of its array -/

/-- Block t of the token array: row p of the block is row 1024·t + p of the array. -/
theorem tok_block (c : Dev nD) (t : Fin cfg0.N) (y : S1024x512.Idx) (k : S32768x512.Idx)
    (h0 : (k 0).val = 1024 * t.val + (y 0).val) (h1 : (k 1).val = (y 1).val) :
    (iblk m c 0 t : Vec Ideal S1024x512 .f32) y = (V m c main_v0 : S32768x512.Idx → EReal) k := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 1024 + 1 * (y 0).val = (k 0).val; rw [e0, h0]; omega
  | ⟨1, _⟩ => show win0_0.index t (1 : Fin 2) * 512 + 1 * (y 1).val = (k 1).val; rw [e1, h1]; omega

/-- The angle row's one block is the row. -/
theorem ang_block (c : Dev nD) (t : Fin cfg0.N) (y : S1x8.Idx) :
    (iblk m c 1 t : Vec Ideal S1x8 .f32) y = (V m c main_v1 : S1x8.Idx → EReal) y := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 8 + 1 * (y 1).val = (y 1).val; rw [e1]; omega

/-- The first layer's transposed weights are read whole at every point. -/
theorem up_block (c : Dev nD) (t : Fin cfg0.N) (y : S8x2048.Idx) :
    (iblk m c 2 t : Vec Ideal S8x2048 .bf16) y = (V m c main_v3 : S8x2048.Idx → EReal) y := by
  obtain ⟨-, -, -, -, e0, e1, -⟩ := idx_facts t
  unfold iblk
  rw [View.read_apply]
  show V m c main_v3 _ = V m c main_v3 _
  congr 1
  funext a
  apply Fin.ext
  match a with
  | ⟨0, _⟩ => show win0_2.index t (0 : Fin 2) * 8 + 1 * (y 0).val = (y 0).val; rw [e0]; omega
  | ⟨1, _⟩ => show win0_2.index t (1 : Fin 2) * 2048 + 1 * (y 1).val = (y 1).val; rw [e1]; omega

/-- The second layer's transposed weights are read whole at every point. -/
theorem down_block (c : Dev nD) (t : Fin cfg0.N) (y : S2048x512.Idx) :
    (iblk m c 3 t : Vec Ideal S2048x512 .bf16) y = (V m c main_v5 : S2048x512.Idx → EReal) y := by
  obtain ⟨-, -, -, -, -, -, e0, e1, -⟩ := idx_facts t
  unfold iblk
  rw [View.read_apply]
  show V m c main_v5 _ = V m c main_v5 _
  congr 1
  funext a
  apply Fin.ext
  match a with
  | ⟨0, _⟩ => show win0_3.index t (0 : Fin 2) * 2048 + 1 * (y 0).val = (y 0).val; rw [e0]; omega
  | ⟨1, _⟩ => show win0_3.index t (1 : Fin 2) * 512 + 1 * (y 1).val = (y 1).val; rw [e1]; omega

/-! ## What point t writes back, and the array after the run -/

/-- What point t writes back is block t of `regionOut` of the arrays as the region finds them. -/
theorem flushed_eq (c : Dev nD) (t : Fin cfg0.N) :
    (dats m 0 c).flushed 4 t = ((cfg0.win 4).blk t).view.read (Elt Ideal)
      (regionOut (V m c main_v0) (V m c main_v1) (V m c main_v3) (V m c main_v5)) := by
  show (cfg0.win 4).cut (grid0.coords t) ((dats m 0 c).after 4 t) = _
  rw [after0_4]
  unfold out0_4
  rw [View.canon_unit_zero hz]
  simp only [View.ld_unit_zero (S := S1024x512) hz, View.ld_unit_zero (S := S1x8) hz, View.ld_unit_zero (S := S8x2048) hz,
    View.ld_unit_zero (S := S2048x512) hz]
  obtain ⟨-, -, -, -, -, -, -, -, e0, e1⟩ := idx_facts t
  funext j
  obtain ⟨p, e, rfl⟩ : ∃ (p : Fin 1024) (e : Fin 512), (j : S1024x512.Idx) = ix2 p e := ⟨j 0, j 1, eq_ix2 j⟩
  show k0_pay1 (F := Ideal) (iblk m c 0 t) (iblk m c 1 t) (iblk m c 2 t) (iblk m c 3 t) (ix2 p e)
    = regionOut (V m c main_v0) (V m c main_v1) (V m c main_v3) (V m c main_v5) (((cfg0.win 4).blk t).view.emb (ix2 p e))
  refine (Body.payload_apply (iblk m c 0 t) (iblk m c 1 t) (iblk m c 2 t) (iblk m c 3 t) p e).trans ?_
  have hr : ((((cfg0.win 4).blk t).view.emb (ix2 p e)) 0).val = 1024 * t.val + p.val := by
    show win0_4.index t (0 : Fin 2) * 1024 + 1 * p.val = _; rw [e0]; omega
  have hc : ((((cfg0.win 4).blk t).view.emb (ix2 p e)) 1).val = e.val := by
    show win0_4.index t (1 : Fin 2) * 512 + 1 * e.val = _; rw [e1]; omega
  unfold regionOut
  refine Finset.sum_congr rfl fun f _ => ?_
  refine congrArg₂ (· * ·) (congrArg₂ max (Finset.sum_congr rfl fun q _ => ?_) rfl) ?_
  · refine congrArg₂ (· * ·) (congrArg Ideal.cos (congrArg₂ (· + ·) ?_ ?_)) ?_
    · exact tok_block m c t (ix2 p (wire q)) _ hr rfl
    · exact ang_block m c t (ix2 (0 : Fin 1) q)
    · exact up_block m c t (ix2 q f)
  · refine (down_block m c t (ix2 f e)).trans (congrArg (V m c main_v5 : S2048x512.Idx → EReal) ?_)
    exact funext fun a => Fin.ext (by match a with | ⟨0, _⟩ => rfl | ⟨1, _⟩ => exact hc.symm)

/-- An index of the output array is in point t's block iff its row is among the block's 1024 rows. -/
theorem mem_blk (t : Fin cfg0.N) (i : S32768x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v6).slice (win0_4.rect t)).set ↔ _
  rw [View.set_slice_whole, Rect.mem_set_unit]
  exact Iff.rfl

/-- Row n lies in block n / 1024: the 32 blocks tile the 32768 rows. -/
theorem cover (i : S32768x512.Idx) : ∃ t : Fin cfg0.N, (cfg0.win 4).flush t = true ∧ i ∈ ((cfg0.win 4).blk t).view.set := by
  have hi0 : (i 0).val < 32768 := (i 0).isLt
  have hi1 : (i 1).val < 512 := (i 1).isLt
  have hN : cfg0.N = 32 := N_0
  let t : Fin cfg0.N := ⟨(i 0).val / 1024, by rw [hN]; omega⟩
  obtain ⟨-, -, -, -, -, -, -, -, e0, e1⟩ := idx_facts t
  have ht : t.val = (i 0).val / 1024 := rfl
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; rw [e0, ht]; omega
  | ⟨1, _⟩ => show win0_4.index t (1 : Fin 2) * 512 ≤ (i 1).val ∧ (i 1).val < win0_4.index t (1 : Fin 2) * 512 + 512; rw [e1]; omega

/-- The output array after the run. -/
theorem final (c : Dev nD) : (dats m 0 c).arrAt 4 cfg0.N = regionOut (V m c main_v0) (V m c main_v1) (V m c main_v3) (V m c main_v5) :=
  (dats m 0 c).arrAt_eq_of_cover 4 _ (fun t _ => flushed_eq m c t) cover

end Cert.FeedForward.Region

end
-- ==== Proof.KernelRun.lean ====
/-
  The kernel program's result is `ffn` of its arguments.

  Around the region the program only re-lays arrays.  Before it: the token array [8, 4096, 512] is flattened to
  32768 rows (token (b, s) becomes row 4096·b + s), the eight angles become a 1 × 8 row, and each weight matrix is
  transposed (and narrowed, which is the identity on the extended reals).  After it: the 32768 output rows are
  folded back to [8, 4096, 512].  Reading the region's output function through these re-layings gives, at (b, s, e),

      Σ_f  max (Σ_q cos (x[b, s, q] + θ[q]) · W1[f, q]) 0  ·  W2[e, f]  =  ffn x θ W1 W2 [b, s, e].
-/
import proofs.«132564_j65481071397135_1_alg».proof.Proof.KernelArray
import Idealize.ShloMosaic.Lib.StableHlo.Run

noncomputable section

open scoped BigOperators

namespace Cert.FeedForward.Region

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.FeedForward

variable (m : (ℓ : Loc nD τ sig) → Buf (Elt Ideal) ℓ) (ρ : Dev nD → PrngReg)

/-! ## The arrays as the region finds them -/

theorem tokens_in (c : Dev nD) : (V m c main_v0 : S32768x512.Idx → EReal)
    = shapeCast S32768x512 (m ((c : Thread nD τ).loc main_arg0)) shapeCasts_S8x4096x512_S32768x512 := by
  show StableHlo.after hostOps0 (fun b => m (c, b)) (Proc.devRef .tc main_v0) = _
  after_results
  rfl

theorem angles_in (c : Dev nD) : (V m c main_v1 : S1x8.Idx → EReal)
    = shapeCast S1x8 (m ((c : Thread nD τ).loc main_arg1)) shapeCasts_S8_S1x8 := by
  show StableHlo.after hostOps0 (fun b => m (c, b)) (Proc.devRef .tc main_v1) = _
  after_results
  rfl

theorem up_in (c : Dev nD) : (V m c main_v3 : S8x2048.Idx → EReal)
    = truncf (F := Ideal) .bf16 (transpose S8x2048 [1, 0] (m ((c : Thread nD τ).loc main_arg2)) transposes_S2048x8_S8x2048_1_0) bitsLt_bf16_f32 := by
  show StableHlo.after hostOps0 (fun b => m (c, b)) (Proc.devRef .tc main_v3) = _
  after_results

theorem down_in (c : Dev nD) : (V m c main_v5 : S2048x512.Idx → EReal)
    = truncf (F := Ideal) .bf16 (transpose S2048x512 [1, 0] (m ((c : Thread nD τ).loc main_arg3)) transposes_S512x2048_S2048x512_1_0) bitsLt_bf16_f32 := by
  show StableHlo.after hostOps0 (fun b => m (c, b)) (Proc.devRef .tc main_v5) = _
  after_results

/-! ## The same, read at an index -/

/-- Token (b, s) is row 4096·b + s of the flattened token array. -/
def row (b : Fin 8) (s : Fin 4096) : Fin 32768 := ⟨4096 * b.val + s.val, by have := b.isLt; have := s.isLt; omega⟩

theorem tokens_at (c : Dev nD) (b : Fin 8) (s : Fin 4096) (col : Fin 512) :
    (V m c main_v0 : S32768x512.Idx → EReal) (ix2 (row b s) col)
      = (m ((c : Thread nD τ).loc main_arg0) : S8x4096x512.Idx → EReal) (ix3 b s col) := by
  rw [tokens_in]
  refine shapeCast_apply _ _ (ix2 (row b s) col) (ix3 b s col) ?_
  rw [Shape.rowMajor_val_three, Shape.rowMajor_val_two]
  show (b.val * 4096 + s.val) * 512 + col.val = (4096 * b.val + s.val) * 512 + col.val
  omega

theorem angles_at (c : Dev nD) (q : Fin 8) :
    (V m c main_v1 : S1x8.Idx → EReal) (ix2 (0 : Fin 1) q) = (m ((c : Thread nD τ).loc main_arg1) : S8.Idx → EReal) (ix1 q) := by
  rw [angles_in]
  refine shapeCast_apply _ _ (ix2 (0 : Fin 1) q) (ix1 q) ?_
  rw [Shape.rowMajor_val_one, Shape.rowMajor_val_two]
  show q.val = 0 * 8 + q.val
  omega

theorem up_at (c : Dev nD) (q : Fin 8) (f : Fin 2048) :
    (V m c main_v3 : S8x2048.Idx → EReal) (ix2 q f) = (m ((c : Thread nD τ).loc main_arg2) : S2048x8.Idx → EReal) (ix2 f q) := by
  rw [up_in]
  exact transpose_apply [1, 0] _ transposes_S2048x8_S8x2048_1_0 (ix2 q f) (ix2 f q) (fun b => match b with | ⟨0, _⟩ => rfl | ⟨1, _⟩ => rfl)

theorem down_at (c : Dev nD) (f : Fin 2048) (e : Fin 512) :
    (V m c main_v5 : S2048x512.Idx → EReal) (ix2 f e) = (m ((c : Thread nD τ).loc main_arg3) : S512x2048.Idx → EReal) (ix2 e f) := by
  rw [down_in]
  exact transpose_apply [1, 0] _ transposes_S512x2048_S2048x512_1_0 (ix2 f e) (ix2 e f) (fun b => match b with | ⟨0, _⟩ => rfl | ⟨1, _⟩ => rfl)

/-! ## The result -/

/-- The region's output at row 4096·b + s and feature e, read through the re-layings, is `ffn` at (b, s, e). -/
theorem regionOut_at (c : Dev nD) (b : Fin 8) (s : Fin 4096) (e : Fin 512) :
    regionOut (V m c main_v0) (V m c main_v1) (V m c main_v3) (V m c main_v5) (ix2 (row b s) e)
      = ffn (m ((c : Thread nD τ).loc main_arg0)) (m ((c : Thread nD τ).loc main_arg1)) (m ((c : Thread nD τ).loc main_arg2)) (m ((c : Thread nD τ).loc main_arg3)) (ix3 b s e) := by
  unfold regionOut ffn hidden meas
  refine Finset.sum_congr rfl fun f _ => ?_
  refine congrArg₂ (· * ·) (congrArg₂ max (Finset.sum_congr rfl fun q _ => ?_) rfl) (down_at m c f e)
  exact congrArg₂ (· * ·) (congrArg Ideal.cos (congrArg₂ (· + ·) (tokens_at m c b s (wire q)) (angles_at m c q))) (up_at m c q f)

/-- What the program's result buffer holds after the lines that follow the region. -/
theorem result_eq (c : Dev nD) :
    Pipeline.afterTail₀ cfgs (dats m) 0 (V0 m) [hostOps1] c main_v7
      = ffn (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = regionOut (V m c main_v0) (V m c main_v1) (V m c main_v3) (V m c main_v5) :=
    (Pipeline.withArrays_arr spec0 launch0.win.arr_inj c _ _ 4).trans (final m c)
  funext i
  obtain ⟨b, s, e, rfl⟩ : ∃ (b : Fin 8) (s : Fin 4096) (e : Fin 512), (i : S8x4096x512.Idx) = ix3 b s e := ⟨i 0, i 1, i 2, eq_ix3 i⟩
  show shapeCast S8x4096x512 (Pipeline.withArrays (cfgs 0).spec c (V0 m c) (fun w => (dats m 0 c).arrAt w (cfgs 0).N) (Proc.devRef .tc main_v6))
      shapeCasts_S32768x512_S8x4096x512 (ix3 b s e) = _
  rw [hw]
  refine (shapeCast_apply _ _ (ix3 b s e) (ix2 (row b s) e) ?_).trans ?_
  · rw [Shape.rowMajor_val_two, Shape.rowMajor_val_three]
    show (4096 * b.val + s.val) * 512 + e.val = (b.val * 4096 + s.val) * 512 + e.val
    omega
  · exact regionOut_at m c b s e

/-- The kernel program's run, read: the result buffer ends at `ffn` of the arguments, and the arguments end unchanged. -/
theorem run : θ_run defs (onTc (τ := τ) (main (F := Ideal))) ⟨m, fun _ => 0, ρ⟩ fun r => ∀ c : Dev nD,
      r.2.mem ((c.tc : Thread nD τ).loc main_v7)
        = ffn (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.FeedForward.Region

end
-- ==== Proof.lean ====
/-
  The feed-forward block with a cosine encoder: the tiled kernel against the plain reference, over the extended reals.

  Both programs compute, for token (b, s) and output feature e,

      Σ_f  max (Σ_q cos (x[b, s, q] + θ[q]) · W1[f, q]) 0  ·  W2[e, f]          (q over 8 wires, f over 2048 hidden units)

  (`ffn`, Proof/Spec.lean).  The reference slices the first eight features, adds the broadcast angles, takes cosines,
  contracts with W1 over the wires, rectifies, and contracts with W2 over the hidden units (Proof/RefSide.lean).  The
  kernel flattens the tokens to 32768 rows, transposes the two weight matrices, runs 32 blocks of 1024 rows — each
  block the same two products into zero accumulators around the rectifier (Proof/KernelPayload.lean), the blocks
  tiling the rows (Proof/KernelArray.lean) — and folds the rows back (Proof/KernelRun.lean).  On the extended reals a
  change of float format is the identity and each product is the plain sum over its contracted axis, so the two
  results agree term by term: the same summands in the same order, with no use of finiteness.  The idealization
  rewrote nothing, so the kernel's idealized text is its own text.
-/
import proofs.«132564_j65481071397135_1_alg».proof.Defs
import proofs.«132564_j65481071397135_1_alg».proof.Proof.Gen.Kernel
import proofs.«132564_j65481071397135_1_alg».proof.Proof.Gen.Kernel.Skeleton
import proofs.«132564_j65481071397135_1_alg».proof.Proof.Gen.Kernel.Launch
import proofs.«132564_j65481071397135_1_alg».proof.Proof.Gen.Kernel.Points
import proofs.«132564_j65481071397135_1_alg».proof.Proof.Gen.Kernel.Frame
import proofs.«132564_j65481071397135_1_alg».proof.Proof.Gen.KernelIdeal
import proofs.«132564_j65481071397135_1_alg».proof.Proof.Gen.KernelIdeal.Skeleton
import proofs.«132564_j65481071397135_1_alg».proof.Proof.Gen.KernelIdeal.Launch
import proofs.«132564_j65481071397135_1_alg».proof.Proof.Gen.KernelIdeal.Points
import proofs.«132564_j65481071397135_1_alg».proof.Proof.Gen.KernelIdeal.Frame
import proofs.«132564_j65481071397135_1_alg».proof.Proof.Gen.ReferenceIdeal
import proofs.«132564_j65481071397135_1_alg».proof.Proof.Gen.Pre_finite_inputs
import proofs.«132564_j65481071397135_1_alg».proof.Proof.Gen.ReferenceIdeal.Run
import proofs.«132564_j65481071397135_1_alg».proof.Proof.Gen.ReferenceIdeal.Read
import proofs.«132564_j65481071397135_1_alg».proof.Proof.RefSide
import proofs.«132564_j65481071397135_1_alg».proof.Proof.KernelRun
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree, the kernel's result is `ffn` of them and the reference's result is `ffn` of them. -/
theorem algebraic : Cert.algebraic_KernelIdeal_ReferenceIdeal := by
  intro m ρ m' ρ' _ hagree
  refine ⟨_, Cert.FeedForward.Region.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v7_eq _ _ _ _).trans ?_
  rw [Cert.FeedForward.Ref.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
